-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x128 : Shape := ⟨2, ![25000, 128]⟩
abbrev S128x128 : Shape := ⟨2, ![128, 128]⟩
abbrev S800000 : Shape := ⟨1, ![800000]⟩
abbrev S_ : Shape := ⟨0, ![]⟩

class Facts : Prop where
  bcast_S_S25000x128 : S_.BroadcastsInDim S25000x128 (![] : Fin 0 → Fin S25000x128.rank)
  reducesTo_S25000x128_S_d0_1 : S25000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S25000x128 .f32) (main_arg1 : FVec F S25000x128 .f32) (main_arg2 : FVec F S128x128 .f32) (main_arg3 : FVec F S128x128 .f32) (main_arg4 : IVec S800000 32) (main_arg5 : IVec S800000 32) : IVec S_ 1 :=
  let main_v0 : FVec F S25000x128 .f32 := Host.absf main_arg0
  let main_cst : FVec F S_ .f32 := constant S_ .f32 0x7F800000#32
  let main_v1 : FVec F S25000x128 .f32 := broadcastInDim S25000x128 ![] bcast_S_S25000x128 main_cst
  let main_v2 : IVec S25000x128 1 := cmpf .olt main_v0 main_v1
  let main_c : IVec S_ 1 := constantI S_ 1 1#1
  let main_v3 : IVec S_ 1 := (fun x v => Host.reduce IntOp.andi x v reducesTo_S25000x128_S_d0_1 h_S_) main_v2 main_c
  let main_v4 : FVec F S25000x128 .f32 := Host.absf main_arg1
  let main_cst_0 : FVec F S_ .f32 := constant S_ .f32 0x7F800000#32
  let main_v5 : FVec F S25000x128 .f32 := broadcastInDim S25000x128 ![] bcast_S_S25000x128 main_cst_0
  let main_v6 : IVec S25000x128 1 := cmpf .olt main_v4 main_v5
  let main_c_1 : IVec S_ 1 := constantI S_ 1 1#1
  let main_v7 : IVec S_ 1 := (fun x v => Host.reduce IntOp.andi x v reducesTo_S25000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S25000x128 : Shape := ⟨2, ![25000, 128]⟩
abbrev S128x128 : Shape := ⟨2, ![128, 128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S25000x1 : Shape := ⟨2, ![25000, 1]⟩
abbrev S5000x128 : Shape := ⟨2, ![5000, 128]⟩
abbrev S5000x1 : Shape := ⟨2, ![5000, 1]⟩
abbrev S50000x128 : Shape := ⟨2, ![50000, 128]⟩
abbrev S800000x128 : Shape := ⟨2, ![800000, 128]⟩

abbrev nBuf : Space → Nat
  | .hbm => 39
  | .vmem => 20
  | .smem => 0
  | _ => 0

abbrev bufTy : (tb : Table) → Fin (tcTables nBuf tb) → BufTy
  | .hbm, ⟨0, _⟩ => ⟨S25000x128, .f32⟩
  | .hbm, ⟨1, _⟩ => ⟨S25000x128, .f32⟩
  | .hbm, ⟨2, _⟩ => ⟨S128x128, .f32⟩
  | .hbm, ⟨3, _⟩ => ⟨S128x128, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S25000x1, .f32⟩
  | .hbm, ⟨21, _⟩ => ⟨S25000x1, .f32⟩
  | .hbm, ⟨22, _⟩ => ⟨S25000x128, .f32⟩
  | .hbm, ⟨23, _⟩ => ⟨S25000x128, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | _, _ => ⟨S25000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S50000x1_S25000x1_0_0 : S50000x1.Slices ![0, 0] S25000x1
  slices_S50000x1_S25000x1_25000_0 : S50000x1.Slices ![25000, 0] S25000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  concatenates_S25000x128_S25000x128_S50000x128_d0 : Shape.Concatenates [S25000x128, S25000x128] S50000x128 0
  bcast_S_S50000x128 : S_.BroadcastsInDim S50000x128 (![] : Fin 0 → Fin S50000x128.rank)
  shapeCasts_S5000x128_S5000x128 : S5000x128.ShapeCasts S5000x128
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S25000x1.size a
  hwx0_2 : ∀ i : grid0.Coords, EltTy.bits .f32 = 32 ∨ (Rect.block (s := S25000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S25000x128.size a
  hwx0_3 : ∀ i : grid0.Coords, EltTy.bits .f32 = 32 ∨ (Rect.block (s := S25000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S25000x1.size a
  hwx1_2 : ∀ i : grid1.Coords, EltTy.bits .f32 = 32 ∨ (Rect.block (s := S25000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S25000x128.size a
  hwx1_3 : ∀ i : grid1.Coords, EltTy.bits .f32 = 32 ∨ (Rect.block (s := S25000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S25000x128 : Shape := ⟨2, ![25000, 128]⟩
abbrev S128x128 : Shape := ⟨2, ![128, 128]⟩
abbrev S800000 : Shape := ⟨1, ![800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩

abbrev nBuf : Space → Nat
  | .hbm => 41
  | .vmem => 0
  | .smem => 0
  | _ => 0

abbrev bufTy : (tb : Table) → Fin (tcTables nBuf tb) → BufTy
  | .hbm, ⟨0, _⟩ => ⟨S25000x128, .f32⟩
  | .hbm, ⟨1, _⟩ => ⟨S25000x128, .f32⟩
  | .hbm, ⟨2, _⟩ => ⟨S128x128, .f32⟩
  | .hbm, ⟨3, _⟩ => ⟨S128x128, .f32⟩
  | .hbm, ⟨4, _⟩ => ⟨S800000, .i32⟩
  | .hbm, ⟨5, _⟩ => ⟨S800000, .i32⟩
  | .hbm, ⟨6, _⟩ => ⟨S25000x128, .f32⟩
  | .hbm, ⟨7, _⟩ => ⟨S25000x128, .f32⟩
  | .hbm, ⟨8, _⟩ => ⟨S50000x128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x128, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x1, .f32⟩
  | .hbm, ⟨39, _⟩ => ⟨S50000x128, .f32⟩
  | .hbm, ⟨40, _⟩ => ⟨S50000x128, .f32⟩
  | _, _ => ⟨S25000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  concatenates_S25000x128_S25000x128_S50000x128_d0 : Shape.Concatenates [S25000x128, S25000x128] S50000x128 0
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  dot_S25000x128_S128x128_S25000x128_1_0_0_1_n_n_wf : DotDims.WF S25000x128 S128x128 S25000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The kernel program's result as ONE function of its six argument arrays, at the ideal instance.

  With deg[r] the number of edges whose row id is r (a scatter-add of ones), the per-node factor is
      norm[r] = (max 1 deg[r]) ^ (-1/2),
  kept as a [50000,1] column.  Each node type's features are projected by its weights and scaled by the node's
  factor,  nodes[r, c] = (∑ k, x[r,k] · w[k,c]) · norm[r]  (the first 25000 rows from the first type, the rest from
  the second), the messages nodes[cols[e]] are summed into their rows' buckets, and the sums are scaled by norm[r]
  once more:
      result[r, c] = (∑ over edges e with rows[e] = r of nodes[cols[e], c]) · norm[r].
  The host's pieces (the factor, the joins and halves, the index wrap, the gather / scatter-add) are stated for any
  float instance; the arithmetic on entries is the extended reals'.
-/
import proofs.«128565_j18502719111841_1_alg».proof.KernelIdeal
import Idealize.ShloMosaic.Lib.ValueIdx

noncomputable section

namespace Cert.KernelIdeal.Spec

open Cert.KernelIdeal Idealize.ShloMosaic Idealize.ShloMosaic.ValueIdx

variable [Cert.KernelIdeal.Facts]
open Cert.KernelIdeal.Facts₀

section AnyFloats
variable {F : FTy → Type} [FloatOps F]

/-- The per-node factor (max 1 deg)^(-1/2), deg the scatter-add of ones at the row ids. -/
def factor (rows : Vec F S800000 .i32) : FVec F S50000 .f32 :=
  Host.powf (F := F)
    (maximumf (broadcastInDim S50000 ![] bcast_S_S50000 (id (constant (F := F) S_ .f32 0x3F800000#32)))
      (Host.scatterAdd (F := F) scatter_S50000_S800000x1_S800000_n_0_0_1
        (broadcastInDim S50000 ![] bcast_S_S50000 (constant (F := F) S_ .f32 0x00000000#32))
        (broadcastInDim S800000x1 ![0] bcast_S800000_S800000x1_0 rows)
        (broadcastInDim S800000 ![] bcast_S_S800000 (constant (F := F) S_ .f32 0x3F800000#32))))
    (broadcastInDim S50000 ![] bcast_S_S50000 (constant (F := F) S_ .f32 0xBF000000#32))

/-- The factors as a [50000,1] column. -/
def factorCol (rows : Vec F S800000 .i32) : FVec F S50000x1 .f32 :=
  shapeCast S50000x1 (factor rows) shapeCasts_S50000_S50000x1

/-- The first 25000 rows of a [50000,1] column, and the last 25000. -/
def half0 (n : FVec F S50000x1 .f32) : FVec F S25000x1 .f32 :=
  extractStridedSlice S25000x1 ![0, 0] n slices_S50000x1_S25000x1_0_0
def half1 (n : FVec F S50000x1 .f32) : FVec F S25000x1 .f32 :=
  extractStridedSlice S25000x1 ![25000, 0] n slices_S50000x1_S25000x1_25000_0

/-- Two [25000,128] arrays joined along the rows. -/
def join (A B : FVec F S25000x128 .f32) : FVec F S50000x128 .f32 :=
  concatenate S50000x128 0 [⟨S25000x128, A⟩, ⟨S25000x128, B⟩] concatenates_S25000x128_S25000x128_S50000x128_d0

/-- The column ids as gather start indices: a negative id counts from the end. -/
def wrapIdx (cols : Vec F S800000 .i32) : Vec F S800000x1 .i32 :=
  broadcastInDim S800000x1 ![0] bcast_S800000_S800000x1_0
    (select (cmpi .slt cols (broadcastInDim S800000 ![] bcast_S_S800000 (constantI S_ 32 0#32)))
      (addi cols (broadcastInDim S800000 ![] bcast_S_S800000 (constantI S_ 32 50000#32))) cols)

/-- Gather the rows `cols` names and sum them into the buckets `rows` names. -/
def spmm (N : FVec F S50000x128 .f32) (rows cols : Vec F S800000 .i32) : FVec F S50000x128 .f32 :=
  Host.scatterAdd (F := F) scatter_S50000x128_S800000x1_S800000x128_1_0_0_1
    (broadcastInDim S50000x128 ![] bcast_S_S50000x128 (constant (F := F) S_ .f32 0x00000000#32))
    (broadcastInDim S800000x1 ![0] bcast_S800000_S800000x1_0 rows)
    (Host.gather gather_S50000x128_S800000x1_S800000x128_1_0_n_n_0_1_1128 N (wrapIdx cols))

end AnyFloats

/-- One node type's rows: features against weights, each row scaled by its entry of a [25000,1] column. -/
def proj (x : FVec Ideal S25000x128 .f32) (w : FVec Ideal S128x128 .f32) (n : FVec Ideal S25000x1 .f32) : FVec Ideal S25000x128 .f32 :=
  fun i => (∑ k : Fin 128, x (ix2 (i 0) k) * w (ix2 k (i 1))) * n (ix2 (i 0) 0)

/-- All 50000 nodes' scaled projections: the first type's rows, then the second's, each with its half of the column. -/
def nodes (a0 a1 : FVec Ideal S25000x128 .f32) (a2 a3 : FVec Ideal S128x128 .f32) (rows : Vec Ideal S800000 .i32) : FVec Ideal S50000x128 .f32 :=
  join (proj a0 a2 (half0 (factorCol rows))) (proj a1 a3 (half1 (factorCol rows)))

/-- The result: the summed messages, each row scaled by its node's factor. -/
def result (a0 a1 : FVec Ideal S25000x128 .f32) (a2 a3 : FVec Ideal S128x128 .f32) (rows cols : Vec Ideal S800000 .i32) : FVec Ideal S50000x128 .f32 :=
  fun i => spmm (nodes a0 a1 a2 a3 rows) rows cols i * factorCol rows (ix2 (i 0) 0)

end Cert.KernelIdeal.Spec

end
-- ==== Proof.Payloads.lean ====
/-
  The three kernel bodies' arithmetic, read at one element of the block, at the ideal instance.
  A projection body computes, for row p and column q of its row block,
      (∑ k, x[p,k] · w[k,q]) · n[p,0]
  (the format changes to bf16 are the identity on extended reals, and the MXU product into a zero accumulator is
  the plain sum over the contracted axis); the scaling body computes x[p,q] · n[p,0].
-/
import proofs.«128565_j18502719111841_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The MXU product's operand indices, axis by axis -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The MXU product into the zero accumulator at (p, q): row p of the left operand against column q of the right. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A [5000,1] column broadcast along the lanes, at (p, q), is the column's entry of row p. -/
theorem lanes_at (n : FVec Ideal S5000x1 .f32) (p : Fin 5000) (q : Fin 128) :
    broadcastTo S5000x128 n broadcasts_S5000x1_S5000x128 (ix2 p q) = n (ix2 p 0) :=
  broadcastTo_apply n broadcasts_S5000x1_S5000x128 (ix2 p q) (ix2 p 0) (fun a => by
    match a with
    | ⟨0, _⟩ => show p.val = if (5000 : Nat) = 1 then 0 else p.val; rw [if_neg (by decide)]
    | ⟨1, _⟩ => show 0 = if (1 : Nat) = 1 then 0 else q.val; rw [if_pos rfl])

/-- The first projection body at (p, q). -/
theorem proj0_at (x : FVec Ideal S5000x128 .f32) (w : FVec Ideal S128x128 .f32) (n : FVec Ideal S5000x1 .f32) (p : Fin 5000) (q : Fin 128) :
    k0_pay1 (F := Ideal) x w n (ix2 p q) = (∑ k : Fin 128, x (ix2 p k) * w (ix2 k q)) * n (ix2 p 0) := by
  unfold k0_pay1
  rw [mulf_apply, matmul_at, shapeCast_self, lanes_at]
  rfl

/-- The second projection body at (p, q): the same arithmetic. -/
theorem proj1_at (x : FVec Ideal S5000x128 .f32) (w : FVec Ideal S128x128 .f32) (n : FVec Ideal S5000x1 .f32) (p : Fin 5000) (q : Fin 128) :
    k1_pay1 (F := Ideal) x w n (ix2 p q) = (∑ k : Fin 128, x (ix2 p k) * w (ix2 k q)) * n (ix2 p 0) := by
  unfold k1_pay1
  rw [mulf_apply, matmul_at, shapeCast_self, lanes_at]
  rfl

/-- The scaling body at (p, q). -/
theorem scale_at (x : FVec Ideal S5000x128 .f32) (n : FVec Ideal S5000x1 .f32) (p : Fin 5000) (q : Fin 128) :
    k2_pay1 (F := Ideal) x n (ix2 p q) = x (ix2 p q) * n (ix2 p 0) := by
  unfold k2_pay1
  rw [mulf_apply, shapeCast_self, shapeCast_self, lanes_at]

end Cert.KernelIdeal.Pay

end
-- ==== Proof.Region0.lean ====
/-
  Projection call 0's result array as one function of the arrays it finds at its entry: every output block is the
  matching block of  (r, c) ↦ (∑ k, x[r,k] · w[k,c]) · n[r,0],  the weight block being the whole [128,128] array at
  every grid point, and the five row blocks of 5000 rows cover the [25000,128] array.
-/
import proofs.«128565_j18502719111841_1_alg».proof.Proof.Gen.KernelIdeal.Frame
import proofs.«128565_j18502719111841_1_alg».proof.Proof.Payloads
import Idealize.ShloMosaic.Lib.Pipeline.Value

noncomputable section

namespace Cert.KernelIdeal.Reg0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The row windows walk down the rows with the grid point (block t is rows 5000·t … 5000·t + 4999, from column 0);
    the weight window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature rows, the weights and the column of per-row factors, as the call finds them. -/
abbrev xarr (c : Dev nD) : FVec Ideal S25000x128 .f32 := V c main_arg0
abbrev warr (c : Dev nD) : FVec Ideal S128x128 .f32 := V c main_arg2
abbrev narr (c : Dev nD) : FVec Ideal S25000x1 .f32 := V c main_v8

/-- The projected and scaled rows: entry (r, c) is row r of the features against column c of the weights, times
    entry (r, 0) of the column operand. -/
def projected (c : Dev nD) : FVec Ideal S25000x128 .f32 :=
  fun i => (∑ k : Fin 128, xarr V c (ix2 (i 0) k) * warr V c (ix2 k (i 1))) * narr V c (ix2 (i 0) 0)

/-- What grid point t writes back is block t of the projected rows. -/
theorem flushed_eq (c : Dev nD) (t : Fin cfg0.N) :
    (dat0 V c).flushed 3 t = ((cfg0.win 3).blk t).view.read (Elt Ideal) (projected V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q) = projected V c (((cfg0.win 3).blk t).view.emb (ix2 p q))
  refine (Pay.proj0_at (iblk0 V c 0 t) (iblk0 V c 1 t) (iblk0 V c 2 t) p q).trans ?_
  unfold projected iblk0
  have h0 : ∀ k : Fin 128, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ k : Fin 128, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 p (0 : Fin 1)) = ix2 ((((cfg0.win 3).blk t).view.emb (ix2 p q)) 0) (0 : Fin 1) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  simp only [View.read_apply]
  show (∑ k : Fin 128, xarr V c (((cfg0.win 0).blk t).view.emb (ix2 p k)) * warr V c (((cfg0.win 1).blk t).view.emb (ix2 k q)))
      * narr V c (((cfg0.win 2).blk t).view.emb (ix2 p (0 : Fin 1))) = _
  exact congrArg₂ (· * ·)
    (Finset.sum_congr rfl fun k _ => congrArg₂ (· * ·) (congrArg (xarr V c) (h0 k)) (congrArg (warr V c) (h1 k)))
    (congrArg (narr V c) h2)

/-- An index of the array is in point t's block iff each coordinate is in the block's range on its axis. -/
theorem mem_blk (t : Fin cfg0.N) (i : S25000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v10).slice (win0_3.rect t)).set ↔ _
  rw [View.set_slice_whole, Rect.mem_set_unit]
  exact Iff.rfl

/-- Row r lies in the block of grid point r / 5000. -/
theorem cover (i : S25000x128.Idx) : ∃ t : Fin cfg0.N, (cfg0.win 3).flush t = true ∧ i ∈ ((cfg0.win 3).blk t).view.set := by
  have hi0 : (i 0).val < 25000 := (i 0).isLt
  have hi1 : (i 1).val < 128 := (i 1).isLt
  have hN : cfg0.N = 5 := N_0
  have ht : (i 0).val / 5000 < cfg0.N := by rw [hN]; omega
  refine ⟨⟨(i 0).val / 5000, ht⟩, flush0_3 _, ?_⟩
  rw [mem_blk]
  obtain ⟨e0, e1, e2, e3, e4, e5, e6, e7⟩ := idx_facts ⟨(i 0).val / 5000, ht⟩
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e7]; omega

/-- After the projection call its result array is the projected rows. -/
theorem final (c : Dev nD) : (dat0 V c).arrAt 3 cfg0.N = projected V c :=
  (dat0 V c).arrAt_eq_of_cover 3 (projected V c) (fun t _ => flushed_eq V c t) cover

end Cert.KernelIdeal.Reg0

end
-- ==== Proof.Region2.lean ====
/-
  The scaling call's result array as one function of the arrays it finds at its entry: every output block is the
  matching block of  i ↦ x[i] · n[i₀, 0],  and the ten row blocks of 5000 rows cover the [50000,128] array.
-/
import proofs.«128565_j18502719111841_1_alg».proof.Proof.Gen.KernelIdeal.Frame
import proofs.«128565_j18502719111841_1_alg».proof.Proof.Payloads
import Idealize.ShloMosaic.Lib.Pipeline.Value

noncomputable section

namespace Cert.KernelIdeal.Reg2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window of the scaling call walks down the rows with the grid point: block t is rows 5000·t … 5000·t + 4999,
    from column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The array the call scales, as it finds it. -/
abbrev xarr (c : Dev nD) : FVec Ideal S50000x128 .f32 := V c main_v22
/-- The column of per-row factors, as the call finds it. -/
abbrev narr (c : Dev nD) : FVec Ideal S50000x1 .f32 := V c main_v7

/-- The array scaled row by row: entry (r, c) of the first operand times entry (r, 0) of the column operand. -/
def scaled (c : Dev nD) : FVec Ideal S50000x128 .f32 :=
  fun i => xarr V c i * narr V c (ix2 (i 0) 0)

/-- What grid point t writes back is block t of the scaled array. -/
theorem flushed_eq (c : Dev nD) (t : Fin cfg2.N) :
    (dat2 V c).flushed 2 t = ((cfg2.win 2).blk t).view.read (Elt Ideal) (scaled V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S5000x1) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q) = scaled V c (((cfg2.win 2).blk t).view.emb (ix2 p q))
  refine (Pay.scale_at (iblk2 V c 0 t) (iblk2 V c 1 t) p q).trans ?_
  unfold scaled iblk2
  simp only [View.read_apply]
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * q.val = win2_2.index t (1 : Fin 2) * 128 + 1 * q.val; omega
  have h1 : ((cfg2.win 1).blk t).view.emb (ix2 p (0 : Fin 1)) = ix2 ((((cfg2.win 2).blk t).view.emb (ix2 p q)) 0) (0 : Fin 1) := by
    funext a; apply Fin.ext
    match a with
    | ⟨0, _⟩ => show win2_1.index t (0 : Fin 2) * 5000 + 1 * p.val = win2_2.index t (0 : Fin 2) * 5000 + 1 * p.val; omega
    | ⟨1, _⟩ => show win2_1.index t (1 : Fin 2) * 1 + 1 * 0 = 0; omega
  show xarr V c (((cfg2.win 0).blk t).view.emb (ix2 p q)) * narr V c (((cfg2.win 1).blk t).view.emb (ix2 p (0 : Fin 1))) = _
  exact congrArg₂ (· * ·) (congrArg (xarr V c) h0) (congrArg (narr V c) h1)

/-- An index of the array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v23).slice (win2_2.rect t)).set ↔ _
  rw [View.set_slice_whole, Rect.mem_set_unit]
  exact Iff.rfl

/-- Row r lies in the block of grid point r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  have ht : (i 0).val / 5000 < cfg2.N := by rw [hN]; omega
  refine ⟨⟨(i 0).val / 5000, ht⟩, flush2_2 _, ?_⟩
  rw [mem_blk]
  obtain ⟨e0, e1, e2, e3, e4, e5⟩ := idx_facts ⟨(i 0).val / 5000, ht⟩
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e5]; omega

/-- After the scaling call its result array is the scaled array. -/
theorem final (c : Dev nD) : (dat2 V c).arrAt 2 cfg2.N = scaled V c :=
  (dat2 V c).arrAt_eq_of_cover 2 (scaled V c) (fun t _ => flushed_eq V c t) cover

end Cert.KernelIdeal.Reg2

end
-- ==== Proof.KernelValue.lean ====
/-
  The kernel program's result buffer after its run is the specification's function of the six argument arrays.
  The buffer contents at each boundary of @main are a fold: a host stretch applies its operations, a pallas_call
  replaces its result array by what its write-backs leave (the three region modules) and keeps every other buffer.
  Read back through that fold: the factor column and its two halves are host values of the row ids; each projection
  call finds its features, weights and half column as launched or as the host left them; the gather / scatter-add
  stretch reads the two projected halves; the scaling call finds the summed messages and the factor column.
  The host stretches are read for any float instance; the three calls' arrays at the ideal one.
-/
import proofs.«128565_j18502719111841_1_alg».proof.Proof.Gen.KernelIdeal.Frame
import proofs.«128565_j18502719111841_1_alg».proof.Proof.Spec
import proofs.«128565_j18502719111841_1_alg».proof.Proof.Region0
import proofs.«128565_j18502719111841_1_alg».proof.Proof.Region1
import proofs.«128565_j18502719111841_1_alg».proof.Proof.Region2
import Idealize.ShloMosaic.Lib.StableHlo.Run

set_option maxRecDepth 16384

noncomputable section

namespace Cert.KernelIdeal.KVal

open Cert.KernelIdeal Cert.KernelIdeal.Gen Idealize.ShloMosaic Idealize.ShloMosaic.TcCoe Idealize.SL.Sem
open Idealize.ShloMosaic.StableHlo Idealize.ShloMosaic.ValueIdx

section AnyFloats
variable {F : FTy → Type} [FloatOps F]
variable (m : (ℓ : Loc nD τ sig) → Buf (Elt F) ℓ) (ρ : Dev nD → PrngReg)

/-! ## At the first projection call's entry (after the three host stretches) -/

theorem W3_arg0 (c : Dev nD) : W3 m ρ c (Proc.devRef .tc main_arg0) = m ((c : Thread nD τ).loc main_arg0) := by
  dsimp only [W3, W2, W1, hostOps0, hostOps0_1, hostOps0_2]
  after_results <;> rfl
theorem W3_arg1 (c : Dev nD) : W3 m ρ c (Proc.devRef .tc main_arg1) = m ((c : Thread nD τ).loc main_arg1) := by
  dsimp only [W3, W2, W1, hostOps0, hostOps0_1, hostOps0_2]
  after_results <;> rfl
theorem W3_arg2 (c : Dev nD) : W3 m ρ c (Proc.devRef .tc main_arg2) = m ((c : Thread nD τ).loc main_arg2) := by
  dsimp only [W3, W2, W1, hostOps0, hostOps0_1, hostOps0_2]
  after_results <;> rfl
theorem W3_arg3 (c : Dev nD) : W3 m ρ c (Proc.devRef .tc main_arg3) = m ((c : Thread nD τ).loc main_arg3) := by
  dsimp only [W3, W2, W1, hostOps0, hostOps0_1, hostOps0_2]
  after_results <;> rfl
theorem W3_arg4 (c : Dev nD) : W3 m ρ c (Proc.devRef .tc main_arg4) = m ((c : Thread nD τ).loc main_arg4) := by
  dsimp only [W3, W2, W1, hostOps0, hostOps0_1, hostOps0_2]
  after_results <;> rfl
theorem W3_arg5 (c : Dev nD) : W3 m ρ c (Proc.devRef .tc main_arg5) = m ((c : Thread nD τ).loc main_arg5) := by
  dsimp only [W3, W2, W1, hostOps0, hostOps0_1, hostOps0_2]
  after_results <;> rfl
/-- The factor column is the host's value of the row ids. -/
theorem W3_v7 (c : Dev nD) : W3 m ρ c (Proc.devRef .tc main_v7) = Spec.factorCol (m ((c : Thread nD τ).loc main_arg4)) := by
  dsimp only [W3, W2, W1, hostOps0, hostOps0_1, hostOps0_2]
  after_results <;> rfl
/-- Its first 25000 rows. -/
theorem W3_v8 (c : Dev nD) : W3 m ρ c (Proc.devRef .tc main_v8) = Spec.half0 (Spec.factorCol (m ((c : Thread nD τ).loc main_arg4))) := by
  dsimp only [W3, W2, W1, hostOps0, hostOps0_1, hostOps0_2]
  after_results <;> rfl
/-- Its last 25000 rows. -/
theorem W3_v9 (c : Dev nD) : W3 m ρ c (Proc.devRef .tc main_v9) = Spec.half1 (Spec.factorCol (m ((c : Thread nD τ).loc main_arg4))) := by
  dsimp only [W3, W2, W1, hostOps0, hostOps0_1, hostOps0_2]
  after_results <;> rfl

/-! ## At the scaling call's entry (after the gather / scatter-add stretch), from the contents before that stretch -/

/-- The summed messages, over the two projected halves as that stretch finds them. -/
theorem W6_v22_of (c : Dev nD) : W6 m ρ c (Proc.devRef .tc main_v22)
    = Spec.spmm (Spec.join (W5 m ρ c (Proc.devRef .tc main_v10)) (W5 m ρ c (Proc.devRef .tc main_v11)))
        (W5 m ρ c (Proc.devRef .tc main_arg4)) (W5 m ρ c (Proc.devRef .tc main_arg5)) := by
  dsimp only [W6, hostOps2]
  after_results <;> rfl

/-- The factor column is untouched by that stretch. -/
theorem W6_v7_of (c : Dev nD) : W6 m ρ c (Proc.devRef .tc main_v7) = W5 m ρ c (Proc.devRef .tc main_v7) := by
  dsimp only [W6, hostOps2]
  after_results <;> rfl

end AnyFloats

variable (m : (ℓ : Loc nD τ sig) → Buf (Elt Ideal) ℓ) (ρ : Dev nD → PrngReg)

/-! ## After the first projection call -/

/-- Its result array: the first node type's scaled projections. -/
theorem W4_v10 (c : Dev nD) : W4 m ρ c (Proc.devRef .tc main_v10)
    = Spec.proj (m ((c : Thread nD τ).loc main_arg0)) (m ((c : Thread nD τ).loc main_arg2)) (Spec.half0 (Spec.factorCol (m ((c : Thread nD τ).loc main_arg4)))) := by
  refine (W4_arr m ρ c 3).trans ?_
  rw [Reg0.final]
  have hx : Reg0.xarr (V3 m ρ) c = m ((c : Thread nD τ).loc main_arg0) := W3_arg0 m ρ c
  have hw : Reg0.warr (V3 m ρ) c = m ((c : Thread nD τ).loc main_arg2) := W3_arg2 m ρ c
  have hn : Reg0.narr (V3 m ρ) c = _ := W3_v8 m ρ c
  unfold Reg0.projected Spec.proj
  rw [hx, hw, hn]

/-! ## After the second projection call -/

/-- Its result array: the second node type's scaled projections. -/
theorem W5_v11 (c : Dev nD) : W5 m ρ c (Proc.devRef .tc main_v11)
    = Spec.proj (m ((c : Thread nD τ).loc main_arg1)) (m ((c : Thread nD τ).loc main_arg3)) (Spec.half1 (Spec.factorCol (m ((c : Thread nD τ).loc main_arg4)))) := by
  refine (W5_arr m ρ c 3).trans ?_
  rw [Reg1.final]
  have hx : Reg1.xarr (V4 m ρ) c = m ((c : Thread nD τ).loc main_arg1) := (W4_of_ne m ρ c main_arg1 (by decide)).trans (W3_arg1 m ρ c)
  have hw : Reg1.warr (V4 m ρ) c = m ((c : Thread nD τ).loc main_arg3) := (W4_of_ne m ρ c main_arg3 (by decide)).trans (W3_arg3 m ρ c)
  have hn : Reg1.narr (V4 m ρ) c = _ := (W4_of_ne m ρ c main_v9 (by decide)).trans (W3_v9 m ρ c)
  unfold Reg1.projected Spec.proj
  rw [hx, hw, hn]

/-- The first call's result array is still there. -/
theorem W5_v10 (c : Dev nD) : W5 m ρ c (Proc.devRef .tc main_v10)
    = Spec.proj (m ((c : Thread nD τ).loc main_arg0)) (m ((c : Thread nD τ).loc main_arg2)) (Spec.half0 (Spec.factorCol (m ((c : Thread nD τ).loc main_arg4)))) :=
  (W5_of_ne m ρ c main_v10 (by decide)).trans (W4_v10 m ρ c)
theorem W5_arg4 (c : Dev nD) : W5 m ρ c (Proc.devRef .tc main_arg4) = m ((c : Thread nD τ).loc main_arg4) :=
  (W5_of_ne m ρ c main_arg4 (by decide)).trans ((W4_of_ne m ρ c main_arg4 (by decide)).trans (W3_arg4 m ρ c))
theorem W5_arg5 (c : Dev nD) : W5 m ρ c (Proc.devRef .tc main_arg5) = m ((c : Thread nD τ).loc main_arg5) :=
  (W5_of_ne m ρ c main_arg5 (by decide)).trans ((W4_of_ne m ρ c main_arg5 (by decide)).trans (W3_arg5 m ρ c))
theorem W5_v7 (c : Dev nD) : W5 m ρ c (Proc.devRef .tc main_v7) = Spec.factorCol (m ((c : Thread nD τ).loc main_arg4)) :=
  (W5_of_ne m ρ c main_v7 (by decide)).trans ((W4_of_ne m ρ c main_v7 (by decide)).trans (W3_v7 m ρ c))

/-! ## After the scaling call -/

/-- The result buffer after the run. -/
theorem value (c : Dev nD) : W7 m ρ c (Proc.devRef .tc main_v23)
    = Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  rw [Reg2.final]
  have hx : Reg2.xarr (V6 m ρ) c = Spec.spmm (Spec.nodes (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg4)) (m ((c : Thread nD τ).loc main_arg5)) := by
    refine (W6_v22_of m ρ c).trans ?_
    rw [W5_v10, W5_v11, W5_arg4, W5_arg5]
    rfl
  have hn : Reg2.narr (V6 m ρ) c = Spec.factorCol (m ((c : Thread nD τ).loc main_arg4)) := (W6_v7_of m ρ c).trans (W5_v7 m ρ c)
  unfold Reg2.scaled Spec.result
  rw [hx, hn]

end Cert.KernelIdeal.KVal

end
-- ==== Proof.Bridge.lean ====
/-
  The specification's function of the six argument arrays is the reference's last stage, at the ideal instance.
  The factor vector, the gather / scatter-add and the index wrap are the same host operations on both sides.
  What differs is where the node factor is applied: the specification scales each node type's projected rows before
  the two halves are joined, the reference joins the two projections and scales all 50000 rows at once.  Row r of the
  joined array comes from the first half when r < 25000 and from row r − 25000 of the second half otherwise; either
  way it is (∑ k, x[r',k] · w[k,c]) · norm[r].  The factor is read from a [50000] vector on the reference's side (two
  broadcasts) and from its [50000,1] reshape on the specification's side: the same entry.
-/
import proofs.«128565_j18502719111841_1_alg».proof.Proof.Spec
import proofs.«128565_j18502719111841_1_alg».proof.Proof.Gen.KernelIdeal
import proofs.«128565_j18502719111841_1_alg».proof.Proof.Gen.ReferenceIdeal.Read
import Idealize.ShloMosaic.Lib.ValueIdx
import Idealize.ShloMosaic.Lib.Pipeline.Value

noncomputable section

namespace Cert.Bridge

open Idealize.ShloMosaic Idealize.ShloMosaic.ValueIdx
open Cert.KernelIdeal.Spec Cert.ReferenceIdeal.Read

abbrev SF : Shape := ⟨2, ![25000, 128]⟩
abbrev SW : Shape := ⟨2, ![128, 128]⟩
abbrev SE : Shape := ⟨1, ![800000]⟩
abbrev SN : Shape := ⟨2, ![50000, 128]⟩
abbrev SC : Shape := ⟨2, ![50000, 1]⟩
abbrev SH : Shape := ⟨2, ![25000, 1]⟩
abbrev SV : Shape := ⟨1, ![50000]⟩

variable (a0 a1 : FVec Ideal SF .f32) (a2 a3 : FVec Ideal SW .f32) (rows cols : Vec Ideal SE .i32)

/-- The factor vector is the same host term on both sides. -/
theorem factor_eq : factor (F := Ideal) rows = val_main_v9 (F := Ideal) rows := rfl

/-- The [50000,1] reshape of the factor vector at (r, 0) is the vector's entry r. -/
theorem factorCol_at (r : Fin 50000) : factorCol rows (ix2 r (0 : Fin 1)) = factor rows (ix1 r) := by
  unfold factorCol
  refine shapeCast_apply _ _ (ix2 r (0 : Fin 1)) (ix1 r) ?_
  rw [Shape.rowMajor_val_one, Shape.rowMajor_val_two]
  show r.val = r.val * 1 + 0
  omega

/-- The reference's two broadcasts of the factor vector, at (r, c), read entry r. -/
theorem bcast12_at (r : Fin 50000) (q : Fin 128) : val_main_v11 (F := Ideal) rows (ix2 r q) = val_main_v9 (F := Ideal) rows (ix1 r) := by
  rw [val_main_v11_apply, val_main_v10_apply]
  exact congrArg _ (funext fun a => by match a with | ⟨0, _⟩ => rfl)
theorem bcast24_at (r : Fin 50000) (q : Fin 128) : val_main_v24 (F := Ideal) rows (ix2 r q) = val_main_v9 (F := Ideal) rows (ix1 r) := by
  rw [val_main_v24_apply, val_main_v23_apply]
  exact congrArg _ (funext fun a => by match a with | ⟨0, _⟩ => rfl)

/-- The first half of a [50000,1] column, at (r, 0), is the column at (r, 0). -/
theorem half0_at (n : FVec Ideal SC .f32) (r : Fin 25000) (r' : Fin 50000) (hr : r'.val = r.val) :
    half0 n (ix2 r (0 : Fin 1)) = n (ix2 r' (0 : Fin 1)) := by
  unfold half0
  exact extractStridedSlice_apply _ n _ (ix2 r (0 : Fin 1)) (ix2 r' (0 : Fin 1)) (fun a => by
    match a with
    | ⟨0, _⟩ => show r'.val = 0 + r.val; omega
    | ⟨1, _⟩ => show 0 = 0 + 0; rfl)
/-- The second half, at (r, 0), is the column at (25000 + r, 0). -/
theorem half1_at (n : FVec Ideal SC .f32) (r : Fin 25000) (r' : Fin 50000) (hr : r'.val = 25000 + r.val) :
    half1 n (ix2 r (0 : Fin 1)) = n (ix2 r' (0 : Fin 1)) := by
  unfold half1
  exact extractStridedSlice_apply _ n _ (ix2 r (0 : Fin 1)) (ix2 r' (0 : Fin 1)) (fun a => by
    match a with
    | ⟨0, _⟩ => show r'.val = 25000 + r.val; omega
    | ⟨1, _⟩ => show 0 = 0 + 0; rfl)

/-- A scaled projection at (r, c), its factor read at row r' of the whole column's vector. -/
theorem proj_at (x : FVec Ideal SF .f32) (w : FVec Ideal SW .f32) (n : FVec Ideal SH .f32) (r : Fin 25000) (q : Fin 128) :
    proj x w n (ix2 r q) = (∑ k : Fin 128, x (ix2 r k) * w (ix2 k q)) * n (ix2 r (0 : Fin 1)) := rfl

/-- The reference's projection at (r, c): the same sum. -/
theorem dot0_at (r : Fin 25000) (q : Fin 128) : val_main_v0 (F := Ideal) a0 a2 (ix2 r q) = ∑ k : Fin 128, a0 (ix2 r k) * a2 (ix2 k q) := by
  rw [val_main_v0_apply]
  refine Finset.sum_congr rfl fun k _ => congrArg₂ (· * ·) (congrArg a0 ?_) (congrArg a2 ?_)
  · funext a; match a with | ⟨0, _⟩ => rfl | ⟨1, _⟩ => rfl
  · funext a; match a with | ⟨0, _⟩ => rfl | ⟨1, _⟩ => rfl
theorem dot1_at (r : Fin 25000) (q : Fin 128) : val_main_v1 (F := Ideal) a1 a3 (ix2 r q) = ∑ k : Fin 128, a1 (ix2 r k) * a3 (ix2 k q) := by
  rw [val_main_v1_apply]
  refine Finset.sum_congr rfl fun k _ => congrArg₂ (· * ·) (congrArg a1 ?_) (congrArg a3 ?_)
  · funext a; match a with | ⟨0, _⟩ => rfl | ⟨1, _⟩ => rfl
  · funext a; match a with | ⟨0, _⟩ => rfl | ⟨1, _⟩ => rfl

/-- The joined, scaled projections are the reference's scaled join. -/
theorem nodes_eq : nodes a0 a1 a2 a3 rows = val_main_v12 (F := Ideal) a0 a1 a2 a3 rows := by
  funext i
  obtain ⟨r, q, rfl⟩ : ∃ (r : Fin 50000) (q : Fin 128), i = ix2 r q := ⟨i 0, i 1, eq_ix2 i⟩
  rw [val_main_v12_apply, bcast12_at, ← factor_eq]
  by_cases hr : r.val < 25000
  · have hL : nodes a0 a1 a2 a3 rows (ix2 r q) = proj a0 a2 (half0 (factorCol rows)) (ix2 (⟨r.val, hr⟩ : Fin 25000) q) := by
      unfold nodes join
      exact concatenate_pair_apply_left (t := SN) (s₁ := SF) (s₂ := SF) _ _ _ _ (ix2 r q) (rfl : SF.rank = SN.rank) (ix2 (⟨r.val, hr⟩ : Fin 25000) q)
        (fun b => by match b with | ⟨0, _⟩ => rfl | ⟨1, _⟩ => rfl)
    have hR : val_main_v2 (F := Ideal) a0 a1 a2 a3 (ix2 r q) = val_main_v0 (F := Ideal) a0 a2 (ix2 (⟨r.val, hr⟩ : Fin 25000) q) := by
      unfold val_main_v2
      exact concatenate_pair_apply_left (t := SN) (s₁ := SF) (s₂ := SF) _ _ _ _ (ix2 r q) (rfl : SF.rank = SN.rank) (ix2 (⟨r.val, hr⟩ : Fin 25000) q)
        (fun b => by match b with | ⟨0, _⟩ => rfl | ⟨1, _⟩ => rfl)
    rw [hL, hR, proj_at, dot0_at, half0_at _ _ r rfl, factorCol_at]
    rfl
  · have hr' : r.val - 25000 < 25000 := by have := r.isLt; omega
    have hL : nodes a0 a1 a2 a3 rows (ix2 r q) = proj a1 a3 (half1 (factorCol rows)) (ix2 (⟨r.val - 25000, hr'⟩ : Fin 25000) q) := by
      unfold nodes join
      exact concatenate_pair_apply_right (t := SN) (s₁ := SF) (s₂ := SF) _ _ _ _ (ix2 r q) (rfl : SF.rank = SN.rank) (rfl : SF.rank = SN.rank) (ix2 (⟨r.val - 25000, hr'⟩ : Fin 25000) q)
        (fun b hb => by
          have hlt : b.val < 2 := b.isLt
          have hne : b.val ≠ 0 := fun h0 => hb (Fin.ext h0)
          have hb1 : b = (⟨1, by decide⟩ : Fin 2) := Fin.ext (by show b.val = 1; omega)
          subst hb1
          rfl)
        (by show r.val - 25000 + 25000 = r.val; omega)
    have hR : val_main_v2 (F := Ideal) a0 a1 a2 a3 (ix2 r q) = val_main_v1 (F := Ideal) a1 a3 (ix2 (⟨r.val - 25000, hr'⟩ : Fin 25000) q) := by
      unfold val_main_v2
      exact concatenate_pair_apply_right (t := SN) (s₁ := SF) (s₂ := SF) _ _ _ _ (ix2 r q) (rfl : SF.rank = SN.rank) (rfl : SF.rank = SN.rank) (ix2 (⟨r.val - 25000, hr'⟩ : Fin 25000) q)
        (fun b hb => by
          have hlt : b.val < 2 := b.isLt
          have hne : b.val ≠ 0 := fun h0 => hb (Fin.ext h0)
          have hb1 : b = (⟨1, by decide⟩ : Fin 2) := Fin.ext (by show b.val = 1; omega)
          subst hb1
          rfl)
        (by show r.val - 25000 + 25000 = r.val; omega)
    rw [hL, hR, proj_at, dot1_at, half1_at _ _ r (by show r.val = 25000 + (r.val - 25000); omega), factorCol_at]
    rfl

/-- The specification is the reference's last stage. -/
theorem result_eq : result a0 a1 a2 a3 rows cols = val_main_v25 (F := Ideal) a0 a1 a2 a3 rows cols := by
  funext i
  obtain ⟨r, q, rfl⟩ : ∃ (r : Fin 50000) (q : Fin 128), i = ix2 r q := ⟨i 0, i 1, eq_ix2 i⟩
  rw [val_main_v25_apply, bcast24_at, ← factor_eq]
  unfold result
  rw [nodes_eq, factorCol_at]
  rfl

end Cert.Bridge

end
-- ==== Proof.lean ====
/-
  Degree-normalised message passing over a two-type graph: per-type linear projections, a gather of the source
  nodes' rows and a scatter-add into the destination rows, with the symmetric factor (max 1 deg)^(-1/2) applied before
  and after.  The kernel program applies the first factor inside its two projection calls (on each node type's
  25000 rows, from the matching half of the factor column) and the second in a row-scaling call; the reference
  joins the two projections and multiplies all 50000 rows by the broadcast factor, twice.  Over the extended reals
  the two are one function of the six arguments:
      result[r, c] = (∑ over edges e with rows[e] = r of nodes[cols[e], c]) · norm[r],
      nodes[r, c]  = (∑ k, x[r', k] · w[k, c]) · norm[r]      (r' = r in the first half, r − 25000 in the second),
  the format changes to bf16 being the identity and the MXU product into zero the plain sum.  No law beyond
  reading the joined array by halves is used, so the finiteness precondition is never opened.

  Modules: Payloads (the three bodies at an element), Region0 / Region1 / Region2 (each call's result array as one
  function of what it finds), KernelRun (the program's run with the result buffer named), Spec (the function),
  KernelValue (the result buffer after the run is the function of the arguments), Bridge (the function is the
  reference's last stage).  Here: the five claims.
-/
import proofs.«128565_j18502719111841_1_alg».proof.Defs
import proofs.«128565_j18502719111841_1_alg».proof.Proof.Gen.Kernel
import proofs.«128565_j18502719111841_1_alg».proof.Proof.Gen.Kernel.Frame
import proofs.«128565_j18502719111841_1_alg».proof.Proof.Gen.KernelIdeal
import proofs.«128565_j18502719111841_1_alg».proof.Proof.Gen.KernelIdeal.Frame
import proofs.«128565_j18502719111841_1_alg».proof.Proof.Gen.ReferenceIdeal
import proofs.«128565_j18502719111841_1_alg».proof.Proof.Gen.Pre_finite_inputs
import proofs.«128565_j18502719111841_1_alg».proof.Proof.Gen.ReferenceIdeal.Run
import proofs.«128565_j18502719111841_1_alg».proof.Proof.Gen.ReferenceIdeal.Read
import proofs.«128565_j18502719111841_1_alg».proof.Proof.KernelRun
import proofs.«128565_j18502719111841_1_alg».proof.Proof.KernelValue
import proofs.«128565_j18502719111841_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the specification's function of the (agreeing) arguments in their result. -/
theorem algebraic : Cert.algebraic_KernelIdeal_ReferenceIdeal := by
  intro m ρ m' ρ' _ hagree
  refine ⟨fun c => Cert.KernelIdeal.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KVal.value m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v25_eq _ _ _ _ _ _).trans (Cert.Bridge.result_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
